-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩
abbrev S1024x512 : Shape := ⟨2, ![1024, 512]⟩
abbrev S512x64 : Shape := ⟨2, ![512, 64]⟩

abbrev nBuf : Space → Nat
  | .hbm => 8
  | .vmem => 8
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S4x16x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x64_S64x2048x64 : S4x16x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  slices_S1024x2048_o0_0_S1024x512 : S1024x2048.Slices ![0, 0] S1024x512
  broadcasts_S1024x1_S1024x512 : S1024x1.Broadcasts S1024x512
  reduces_S1024x512_S1024 : S1024x512.Reduces [1] S1024
  slices_S2048x64_o0_0_S512x64 : S2048x64.Slices ![0, 0] S512x64
  slices_S1024x2048_o0_512_S1024x512 : S1024x2048.Slices ![0, 512] S1024x512
  slices_S2048x64_o512_0_S512x64 : S2048x64.Slices ![512, 0] S512x64
  slices_S1024x2048_o0_1024_S1024x512 : S1024x2048.Slices ![0, 1024] S1024x512
  slices_S2048x64_o1024_0_S512x64 : S2048x64.Slices ![1024, 0] S512x64
  slices_S1024x2048_o0_1536_S1024x512 : S1024x2048.Slices ![0, 1536] S1024x512
  slices_S2048x64_o1536_0_S512x64 : S2048x64.Slices ![1536, 0] S512x64
  broadcasts_S1024x1_S1024x64 : S1024x1.Broadcasts S1024x64
  shapeCasts_S1024x64_S1x1024x64 : S1024x64.ShapeCasts S1x1024x64
  shapeCasts_S64x2048x64_S4x16x2048x64 : S64x2048x64.ShapeCasts S4x16x2048x64
  dot_S1024x64_S2048x64_S1024x2048_1_1_0_0_n_n_wf : DotDims.WF S1024x64 S2048x64 S1024x2048 [1] [1] [0] [0] [] []
  dot_S1024x512_S512x64_S1024x64_1_0_0_1_n_n_wf : DotDims.WF S1024x512 S512x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S64x2048x64.size a
  hwx0_0 : ∀ i : grid0.Coords, EltTy.bits .f32 = 32 ∨ (Rect.block (s := S64x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S64x2048x64.size a
  hwx0_3 : ∀ i : grid0.Coords, EltTy.bits .f32 = 32 ∨ (Rect.block (s := S64x2048x64) S1x1024x64.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf

abbrev win0_0 : Pipeline.Window sig grid0 :=
  Pipeline.Window.ofSpec (Memref.whole main_v0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Finite.lean ====
/-
  From the precondition "every float input is finite" to the form the algebra uses: every entry of each of the three
  argument arrays is (the coercion of) a real number.

  The precondition is printed as  all(|q| < +∞) ∧ all(|k| < +∞) ∧ all(|v| < +∞)  evaluating to the one-bit word 1.
  A conjunction of one-bit words is 1 only if both are; an and-reduction over every axis that is 1 had a 1 at every
  element; and on the extended reals  max x (−x) < ⊤  leaves only the real numbers (it fails at both infinities).
-/
import proofs.«406635_j27582279975372_3_alg».proof.Pre_finite_inputs
import Idealize.ShloMosaic.Lib.ReduceAll
import Idealize.ShloMosaic.Lib.ValueIdx
import Idealize.ShloMosaic.PureOps.Ideal

noncomputable section

namespace Cert.Finite

open Idealize.ShloMosaic

/-- The result of a reduction over every axis has exactly one index. -/
instance : Subsingleton Cert.Pre_finite_inputs.S_.Idx := ⟨fun a b => funext fun d => d.elim0⟩

/-- The word 0x7F800000 is the pattern of +∞. -/
theorem ofBits_inf : Ideal.ofBits .f32 0x7F800000#32 = (⊤ : EReal) := by
  simp [Ideal.ofBits, Ideal.ieee]

/-- One element: where the bit of  max x (−x) < +∞  is 1, x is a real number. At either infinity the
    maximum is ⊤, which is not below ⊤, so the bit would be 0. -/
theorem real_of_bit (x : Ideal .f32)
    (hx : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at hx
  rw [ofBits_inf] at hx
  unfold Ideal.cmp at hx
  induction x using EReal.rec with
  | bot => simp at hx
  | coe r => exact ⟨r, rfl⟩
  | top => simp at hx

/-- One array: where the and-reduction over every axis of the bits  |a i| < +∞  is 1, every entry of a is a real
    number: the reduction being 1 gives the bit 1 at every index, and the element fact does the rest. -/
theorem entry_real [Cert.Pre_finite_inputs.Facts] (a : FVec Ideal Cert.Pre_finite_inputs.S4x16x2048x64 .f32)
    (h : Host.reduce IntOp.andi
        (cmpf .olt (Host.absf a)
          (broadcastInDim Cert.Pre_finite_inputs.S4x16x2048x64 ![]
            Cert.Pre_finite_inputs.Facts.bcast_S_S4x16x2048x64
            (constant Cert.Pre_finite_inputs.S_ .f32 0x7F800000#32)))
        (constantI Cert.Pre_finite_inputs.S_ 1 1#1)
        Cert.Pre_finite_inputs.Facts.reducesTo_S4x16x2048x64_S_d0_1_2_3
        Cert.Pre_finite_inputs.Facts.h_S_ ValueIdx.ix0 = 1#1) :
    ∀ i, ∃ r : ℝ, a i = (r : EReal) := by
  intro i
  have hi := Host.reduce_andi_all _ _ _ _ _ h i
  exact real_of_bit (a i) hi

/-- Where the printed precondition is all ones, every entry of each argument array is a real number. -/
theorem real_of_pre [Cert.Pre_finite_inputs.Facts]
    (a0 a1 a2 : FVec Ideal Cert.Pre_finite_inputs.S4x16x2048x64 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  change IntOp.andi (IntOp.andi _ _) _ = 1#1 at h0
  obtain ⟨h01, h2⟩ := IntOp.andi_eq_one.1 h0
  obtain ⟨h0', h1⟩ := IntOp.andi_eq_one.1 h01
  exact ⟨entry_real a0 h0', entry_real a1 h1, entry_real a2 h2⟩

end Cert.Finite

end
-- ==== Proof.KerOps.lean ====
/-
  The kernel body's non-pointwise operations, each read at one index over explicit coordinates.

  The two contractions are sums of products over the contracted axis (64 features for query × key, 512 key positions
  of one group for weight × value); a row reduction is a sum, or a fold of max from the accumulator's value, over the
  row; a column [1024] recast as [1024, 1] and a column [1024, 1] stretched along rows read the same entry at every
  position of the row; a cut of 512 columns (or 512 rows) from offset o reads the source at o + j.
-/
import proofs.«406635_j27582279975372_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KerOps

open Idealize.ShloMosaic Idealize.ShloMosaic.ValueIdx Cert.KernelIdeal Cert.KernelIdeal.Gen

/-! ### Layout -/

/-- A column [1024] recast as [1024, 1]: the entry of its row. -/
theorem colcast_apply (v : FVec Ideal S1024 .f32) (h : S1024.ShapeCasts S1024x1) (r : Fin 1024) (u : Fin 1) :
    shapeCast S1024x1 v h (ix2 r u) = v (ix1 r) :=
  shapeCast_apply v h _ _ (by
    rw [Shape.rowMajor_val_one, Shape.rowMajor_val_two]
    show r.val = r.val * 1 + u.val
    omega)

/-- A column [1024, 1] stretched to 512 columns: the entry of its row, at every column. -/
theorem colbcast512_apply (v : FVec Ideal S1024x1 .f32) (h : S1024x1.Broadcasts S1024x512) (r : Fin 1024) (j : Fin 512) :
    broadcastTo S1024x512 v h (ix2 r j) = v (ix2 r (0 : Fin 1)) :=
  broadcastTo_apply v h _ _ (fun a => by
    match a with
    | ⟨0, _⟩ => show r.val = if (1024 : ℕ) = 1 then 0 else r.val; rw [if_neg (by decide)]
    | ⟨1, _⟩ => show (0 : ℕ) = if (1 : ℕ) = 1 then 0 else j.val; rw [if_pos rfl])

/-- A column [1024, 1] stretched to 64 columns: the entry of its row, at every column. -/
theorem colbcast64_apply (v : FVec Ideal S1024x1 .f32) (h : S1024x1.Broadcasts S1024x64) (r : Fin 1024) (d : Fin 64) :
    broadcastTo S1024x64 v h (ix2 r d) = v (ix2 r (0 : Fin 1)) :=
  broadcastTo_apply v h _ _ (fun a => by
    match a with
    | ⟨0, _⟩ => show r.val = if (1024 : ℕ) = 1 then 0 else r.val; rw [if_neg (by decide)]
    | ⟨1, _⟩ => show (0 : ℕ) = if (1 : ℕ) = 1 then 0 else d.val; rw [if_pos rfl])

/-! ### Row reductions -/

/-- A row sum of a [1024, 512] array is the sum over its 512 columns. -/
theorem rowsum_apply (p : FVec Ideal S1024x512 .f32) (h : S1024x512.Reduces [1] S1024) (r : Fin 1024) :
    multiReduction .add [1] S1024 p 0x00000000#32 h (.inl rfl) rfl (ix1 r) = ∑ k : Fin 512, p (ix2 r k) := by
  refine (Ideal.multiReduction_add_single p 0x00000000#32 h (.inl rfl) rfl (ix1 r)).trans ?_
  exact Finset.sum_congr rfl fun k _ => congrArg p (funext fun a => Fin.ext (by
    match a with
    | ⟨0, _⟩ => rfl
    | ⟨1, _⟩ => rfl))

/-- A row maximum of a [1024, 2048] array is the fold of max, from the accumulator's value, over its 2048 columns. -/
theorem rowmax_apply (s : FVec Ideal S1024x2048 .f32) (h : S1024x2048.Reduces [1] S1024) (r : Fin 1024) :
    multiReduction .maximumf [1] S1024 s 0xFF800000#32 h (.inl rfl) rfl (ix1 r)
      = (Finset.univ : Finset (Fin 2048)).fold max (Ideal.ofBits .f32 0xFF800000#32) (fun k => s (ix2 r k)) := by
  refine (Ideal.multiReduction_maximumf_single s 0xFF800000#32 h (.inl rfl) rfl (ix1 r)).trans ?_
  exact congrArg (fun f => (Finset.univ : Finset (Fin 2048)).fold max (Ideal.ofBits .f32 0xFF800000#32) f)
    (funext fun k => congrArg s (funext fun a => Fin.ext (by
      match a with
      | ⟨0, _⟩ => rfl
      | ⟨1, _⟩ => rfl)))

/-! ### The contraction query × key over the 64 features -/

theorem qk_lhs_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem qk_lhs_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem qk_rhs_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem qk_rhs_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

/-- Entry (r, j) of query × keyᵀ into a zero accumulator: the sum over the 64 features. -/
theorem qk_apply (a : FVec Ideal S1024x64 .bf16) (b : FVec Ideal S2048x64 .bf16) (r : Fin 1024) (j : Fin 2048) :
    matmul dot_S1024x64_S2048x64_S1024x2048_1_1_0_0_n_n none a b (constant S1024x2048 .f32 0x00000000#32) (ix2 r j)
      = ∑ e : Fin 64, a (ix2 r e) * b (ix2 j e) := by
  simp only [matmul]
  rw [Ideal.matmul_constant_zero_apply, ← Equiv.sum_comp (contrEquiv1 dot_S1024x64_S2048x64_S1024x2048_1_1_0_0_n_n 64 rfl rfl).symm]
  refine Finset.sum_congr rfl fun e _ => ?_
  have he := contrEquiv1_symm_val dot_S1024x64_S2048x64_S1024x2048_1_1_0_0_n_n 64 rfl rfl e
  have el : dot_S1024x64_S2048x64_S1024x2048_1_1_0_0_n_n.lhsIdx (ix2 r j) ((contrEquiv1 dot_S1024x64_S2048x64_S1024x2048_1_1_0_0_n_n 64 rfl rfl).symm e) = ix2 r e := funext fun ax => Fin.ext (by
    match ax with
    | ⟨0, _⟩ => exact qk_lhs_0 _ _
    | ⟨1, _⟩ => exact (qk_lhs_1 _ _).trans he)
  have er : dot_S1024x64_S2048x64_S1024x2048_1_1_0_0_n_n.rhsIdx (ix2 r j) ((contrEquiv1 dot_S1024x64_S2048x64_S1024x2048_1_1_0_0_n_n 64 rfl rfl).symm e) = ix2 j e := funext fun ax => Fin.ext (by
    match ax with
    | ⟨0, _⟩ => exact qk_rhs_0 _ _
    | ⟨1, _⟩ => exact (qk_rhs_1 _ _).trans he)
  rw [el, er]

/-! ### The contraction weight × value over one group of 512 key positions -/

theorem pv_lhs_0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem pv_lhs_1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
theorem pv_rhs_0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
theorem pv_rhs_1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- Entry (r, d) of weights × values into a zero accumulator: the sum over the group's 512 key positions. -/
theorem pv_apply (p : FVec Ideal S1024x512 .bf16) (w : FVec Ideal S512x64 .bf16) (r : Fin 1024) (d : Fin 64) :
    matmul dot_S1024x512_S512x64_S1024x64_1_0_0_1_n_n none p w (constant S1024x64 .f32 0x00000000#32) (ix2 r d)
      = ∑ k : Fin 512, p (ix2 r k) * w (ix2 k d) := by
  simp only [matmul]
  rw [Ideal.matmul_constant_zero_apply, ← Equiv.sum_comp (contrEquiv1 dot_S1024x512_S512x64_S1024x64_1_0_0_1_n_n 512 rfl rfl).symm]
  refine Finset.sum_congr rfl fun k _ => ?_
  have hk := contrEquiv1_symm_val dot_S1024x512_S512x64_S1024x64_1_0_0_1_n_n 512 rfl rfl k
  have el : dot_S1024x512_S512x64_S1024x64_1_0_0_1_n_n.lhsIdx (ix2 r d) ((contrEquiv1 dot_S1024x512_S512x64_S1024x64_1_0_0_1_n_n 512 rfl rfl).symm k) = ix2 r k := funext fun ax => Fin.ext (by
    match ax with
    | ⟨0, _⟩ => exact pv_lhs_0 _ _
    | ⟨1, _⟩ => exact (pv_lhs_1 _ _).trans hk)
  have er : dot_S1024x512_S512x64_S1024x64_1_0_0_1_n_n.rhsIdx (ix2 r d) ((contrEquiv1 dot_S1024x512_S512x64_S1024x64_1_0_0_1_n_n 512 rfl rfl).symm k) = ix2 k d := funext fun ax => Fin.ext (by
    match ax with
    | ⟨0, _⟩ => exact (pv_rhs_0 _ _).trans hk
    | ⟨1, _⟩ => exact pv_rhs_1 _ _)
  rw [el, er]

end Cert.KerOps

end
-- ==== Proof.Attn.lean ====
/-
  Scaled-dot-product attention for one query row and one output column, on the extended reals, written the two ways
  the two programs compute it.

  One query row `q : Fin 64 → EReal`, the keys `k : Fin 2048 → Fin 64 → EReal` and one column of the values
  `v : Fin 2048 → EReal`. Both programs form the scores s_j, take the row maximum m, the weights p_j = exp (s_j - m),
  and return  (∑_j p_j · v_j) / (∑_j p_j).  They differ in three places:
  * the scale 1/8 multiplies the query before the contraction over the 64 features on one side, the finished
    contraction on the other (distributivity: needs finite entries);
  * one side divides the finished sum ∑_j p_j · v_j by ∑_j p_j, the other divides every weight first (division
    distributing over the sum: needs a finite, nonzero denominator — it is a sum of 2048 positive reals);
  * one side adds the 2048 columns in four consecutive groups of 512.
-/
import Idealize.ShloMosaic.PureOps.Ideal

noncomputable section

namespace Cert.Attn

open Idealize.ShloMosaic

/-- The scale, the f32 word of 0.125. -/
abbrev cScale : EReal := Ideal.ofBits .f32 0x3E000000#32
/-- The f32 word of −∞, from which both row maxima start. -/
abbrev cNegInf : EReal := Ideal.ofBits .f32 0xFF800000#32

/-- The sum of `f` over the 512 consecutive columns from `o`. -/
def chunk (o : ℕ) (ho : o + 512 ≤ 2048) (f : Fin 2048 → EReal) : EReal :=
  ∑ j : Fin 512, f ⟨o + j.val, Nat.lt_of_lt_of_le (Nat.add_lt_add_left j.isLt o) ho⟩

/-- The row maximum: the fold of `max` from −∞ over the 2048 columns. -/
def rowMax (s : Fin 2048 → EReal) : EReal := (Finset.univ : Finset (Fin 2048)).fold max cNegInf s

/-! ### The kernel's way -/

/-- Scores with the query scaled first. -/
def kerScore (q : Fin 64 → EReal) (k : Fin 2048 → Fin 64 → EReal) (j : Fin 2048) : EReal :=
  ∑ d : Fin 64, (q d * cScale) * k j d

/-- Weights exp (s_j − max). -/
def kerP (q : Fin 64 → EReal) (k : Fin 2048 → Fin 64 → EReal) (j : Fin 2048) : EReal :=
  Ideal.exp (kerScore q k j - rowMax (kerScore q k))

/-- The weighted sum and the normaliser, each added up in four groups of 512 columns, then ONE division. -/
def kerVal (q : Fin 64 → EReal) (k : Fin 2048 → Fin 64 → EReal) (v : Fin 2048 → EReal) : EReal :=
  Ideal.div
    (chunk 0 (by norm_num) (fun j => kerP q k j * v j) + chunk 512 (by norm_num) (fun j => kerP q k j * v j)
      + chunk 1024 (by norm_num) (fun j => kerP q k j * v j) + chunk 1536 (by norm_num) (fun j => kerP q k j * v j))
    (chunk 0 (by norm_num) (kerP q k) + chunk 512 (by norm_num) (kerP q k)
      + chunk 1024 (by norm_num) (kerP q k) + chunk 1536 (by norm_num) (kerP q k))

/-! ### The reference's way -/

/-- Scores with the finished contraction scaled. -/
def refScore (q : Fin 64 → EReal) (k : Fin 2048 → Fin 64 → EReal) (j : Fin 2048) : EReal :=
  (∑ d : Fin 64, q d * k j d) * cScale

/-- Weights exp (s_j − max (−∞, max)). -/
def refP (q : Fin 64 → EReal) (k : Fin 2048 → Fin 64 → EReal) (j : Fin 2048) : EReal :=
  Ideal.exp (refScore q k j - max cNegInf (rowMax (refScore q k)))

/-- Every weight divided by the normaliser first, then the weighted sum. -/
def refVal (q : Fin 64 → EReal) (k : Fin 2048 → Fin 64 → EReal) (v : Fin 2048 → EReal) : EReal :=
  ∑ j : Fin 2048, Ideal.div (refP q k j) (∑ l : Fin 2048, refP q k l) * v j

/-! ### The two constant words -/

/-- The word of −∞ denotes `⊥`. -/
theorem cNegInf_eq : cNegInf = ⊥ := by
  simp [Ideal.ofBits, Ideal.ieee]

/-- The scale is finite. -/
theorem cScale_real : ∃ c : ℝ, cScale = (c : EReal) := by
  refine ⟨(2 ^ 23 + 0 : ℕ) * (2 : ℝ) ^ ((124 : ℤ) - (2 ^ (8 - 1) - 1) - 23), ?_⟩
  simp [Ideal.ofBits, Ideal.ieee, -EReal.coe_mul]

/-! ### Sums of coerced reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of `max` from `⊥` over a nonempty family of finite values is finite. -/
theorem fold_max_real {ι : Type*} (t : Finset ι) (ht : t.Nonempty) (f : ι → ℝ) :
    ∃ m : ℝ, t.fold max (⊥ : EReal) (fun j => (f j : EReal)) = (m : EReal) := by
  refine ⟨(t.fold max (⊥ : EReal) (fun j => (f j : EReal))).toReal, (EReal.coe_toReal ?_ ?_).symm⟩
  · refine ne_of_lt ((Finset.fold_max_lt _).2 ⟨bot_lt_top, fun x _ => EReal.coe_lt_top _⟩)
  · obtain ⟨x, hx⟩ := ht
    exact ne_of_gt ((Finset.lt_fold_max _).2 (Or.inr ⟨x, hx, EReal.bot_lt_coe _⟩))

/-! ### The four groups of 512 columns make up the 2048 -/

theorem chunk_eq (f : Fin 2048 → EReal) (a : Fin 4) (o : ℕ) (ho : o + 512 ≤ 2048) (hoa : o = 512 * a.val) :
    chunk o ho f = ∑ y : Fin 512, f (finProdFinEquiv (a, y)) := by
  unfold chunk
  refine Finset.sum_congr rfl (fun j _ => congrArg f (Fin.ext ?_))
  simp [finProdFinEquiv, hoa]
  omega

theorem chunks_eq_sum (f : Fin 2048 → EReal) :
    chunk 0 (by norm_num) f + chunk 512 (by norm_num) f + chunk 1024 (by norm_num) f + chunk 1536 (by norm_num) f
      = ∑ j : Fin 2048, f j := by
  rw [← Equiv.sum_comp (finProdFinEquiv : Fin 4 × Fin 512 ≃ Fin (4 * 512)) f, Fintype.sum_prod_type, Fin.sum_univ_four,
    chunk_eq f 0 0 _ rfl, chunk_eq f 1 512 _ rfl, chunk_eq f 2 1024 _ rfl, chunk_eq f 3 1536 _ rfl]

/-! ### Scores, maximum and weights on finite entries -/

/-- The kernel's score is the coercion of the real score. -/
theorem kerScore_coe (q' : Fin 64 → ℝ) (k' : Fin 2048 → Fin 64 → ℝ) (c : ℝ) (hc : cScale = (c : EReal)) (j : Fin 2048) :
    kerScore (fun d => (q' d : EReal)) (fun j d => (k' j d : EReal)) j = (((∑ d, q' d * k' j d) * c : ℝ) : EReal) := by
  have h : ∀ d, ((q' d : EReal) * (c : EReal)) * (k' j d : EReal) = ((q' d * k' j d * c : ℝ) : EReal) := by
    intro d
    rw [← EReal.coe_mul, ← EReal.coe_mul, mul_right_comm]
  unfold kerScore
  rw [hc, Finset.sum_mul, coe_sum]
  exact Finset.sum_congr rfl (fun d _ => h d)

/-- The reference's score is the coercion of the same real score. -/
theorem refScore_coe (q' : Fin 64 → ℝ) (k' : Fin 2048 → Fin 64 → ℝ) (c : ℝ) (hc : cScale = (c : EReal)) (j : Fin 2048) :
    refScore (fun d => (q' d : EReal)) (fun j d => (k' j d : EReal)) j = (((∑ d, q' d * k' j d) * c : ℝ) : EReal) := by
  have h : ∀ d, (q' d : EReal) * (k' j d : EReal) = ((q' d * k' j d : ℝ) : EReal) := fun d => (EReal.coe_mul _ _).symm
  unfold refScore
  rw [hc, EReal.coe_mul, coe_sum]
  exact congrArg (· * (c : EReal)) (Finset.sum_congr rfl (fun d _ => h d))

/-- The row maximum of finite scores is finite. -/
theorem rowMax_real (s : Fin 2048 → ℝ) : ∃ m : ℝ, rowMax (fun j => (s j : EReal)) = (m : EReal) := by
  unfold rowMax
  rw [cNegInf_eq]
  exact fold_max_real _ ⟨0, Finset.mem_univ _⟩ s

/-! ### One division of the sum against the sum of the divided weights -/

theorem div_sum_eq {ι : Type*} [Fintype ι] (P v : ι → ℝ) (hL : (∑ j, P j) ≠ 0) :
    Ideal.div (∑ j, (P j : EReal) * (v j : EReal)) (∑ j, (P j : EReal))
      = ∑ j, Ideal.div (P j : EReal) (∑ l, (P l : EReal)) * (v j : EReal) := by
  have hden : (∑ j, (P j : EReal)) = ((∑ j, P j : ℝ) : EReal) := (coe_sum _ _).symm
  have hnum : (∑ j, (P j : EReal) * (v j : EReal)) = ((∑ j, P j * v j : ℝ) : EReal) := by
    rw [coe_sum]
    exact Finset.sum_congr rfl (fun j _ => (EReal.coe_mul _ _).symm)
  have hterm : ∀ j, Ideal.div (P j : EReal) ((∑ l, P l : ℝ) : EReal) * (v j : EReal)
      = ((P j * (1 / ∑ l, P l) * v j : ℝ) : EReal) := by
    intro j
    rw [Ideal.div_coe hL, ← EReal.coe_mul, ← EReal.coe_mul]
  rw [hden, hnum, Ideal.div_coe hL, ← EReal.coe_mul, Finset.sum_congr rfl (fun j _ => hterm j), ← coe_sum, Finset.sum_mul]
  exact congrArg _ (Finset.sum_congr rfl (fun j _ => mul_right_comm _ _ _))

/-- On finite entries the two ways agree. -/
theorem kerVal_eq_refVal (q : Fin 64 → EReal) (k : Fin 2048 → Fin 64 → EReal) (v : Fin 2048 → EReal)
    (hq : ∀ d, ∃ r : ℝ, q d = (r : EReal)) (hk : ∀ j d, ∃ r : ℝ, k j d = (r : EReal)) (hv : ∀ j, ∃ r : ℝ, v j = (r : EReal)) :
    kerVal q k v = refVal q k v := by
  choose q' hq' using hq
  choose k' hk' using hk
  choose v' hv' using hv
  obtain rfl : q = fun d => (q' d : EReal) := funext hq'
  obtain rfl : k = fun j d => (k' j d : EReal) := funext (fun j => funext (hk' j))
  obtain rfl : v = fun j => (v' j : EReal) := funext hv'
  obtain ⟨c, hc⟩ := cScale_real
  -- both score rows are the coercion of one real row
  have hks : kerScore (fun d => (q' d : EReal)) (fun j d => (k' j d : EReal))
      = fun j => (((∑ d, q' d * k' j d) * c : ℝ) : EReal) := funext (kerScore_coe q' k' c hc)
  have hrs : refScore (fun d => (q' d : EReal)) (fun j d => (k' j d : EReal))
      = fun j => (((∑ d, q' d * k' j d) * c : ℝ) : EReal) := funext (refScore_coe q' k' c hc)
  -- its maximum is a real m
  obtain ⟨m, hm⟩ := rowMax_real (fun j => (∑ d, q' d * k' j d) * c)
  -- both weight rows are the coercion of exp (s_j − m)
  have hkp : kerP (fun d => (q' d : EReal)) (fun j d => (k' j d : EReal))
      = fun j => ((Real.exp ((∑ d, q' d * k' j d) * c - m) : ℝ) : EReal) := by
    funext j
    unfold kerP
    rw [hks, hm, ← EReal.coe_sub, Ideal.exp_coe]
  have hrp : refP (fun d => (q' d : EReal)) (fun j d => (k' j d : EReal))
      = fun j => ((Real.exp ((∑ d, q' d * k' j d) * c - m) : ℝ) : EReal) := by
    funext j
    unfold refP
    rw [hrs, hm, cNegInf_eq, max_bot_left, ← EReal.coe_sub, Ideal.exp_coe]
  unfold kerVal refVal
  rw [chunks_eq_sum, chunks_eq_sum, hkp, hrp]
  exact div_sum_eq _ _ (ne_of_gt (Finset.sum_pos (fun j _ => Real.exp_pos _) ⟨0, Finset.mem_univ _⟩))

end Cert.Attn

end
-- ==== Proof.KerPay.lean ====
/-
  The kernel body's one store, read at one entry (0, r, d) of its block: it is the row formula `Attn.kerVal` of row r
  of the query block, of the key block, and of column d of the value block.

  The body forms the scores of the whole block (query scaled by 1/8, contracted with the keys over the 64 features),
  the row maxima, and then four times — for the key positions 0–511, 512–1023, 1024–1535, 1536–2047 — the weights
  exp (score − max), their row sum, and their product with the matching 512 rows of the values; the four row sums and
  the four products are added up from zero, and the quotient is stored.
-/
import proofs.«406635_j27582279975372_3_alg».proof.Proof.KerOps
import proofs.«406635_j27582279975372_3_alg».proof.Proof.Attn

noncomputable section

namespace Cert.KerPay

open Idealize.ShloMosaic Idealize.ShloMosaic.ValueIdx Cert.KernelIdeal Cert.KernelIdeal.Gen Cert.KerOps Cert.Attn

variable (x0 : Vec Ideal S1x1024x64 .f32) (x1 x2 : Vec Ideal S1x2048x64 .f32)

/-- Row r of the query block. -/
abbrev qrow (r : Fin 1024) : Fin 64 → EReal := fun e => x0 (ix3 (0 : Fin 1) r e)
/-- The key block, by key position. -/
abbrev krows : Fin 2048 → Fin 64 → EReal := fun j e => x1 (ix3 (0 : Fin 1) j e)
/-- Column d of the value block. -/
abbrev vcol (d : Fin 64) : Fin 2048 → EReal := fun j => x2 (ix3 (0 : Fin 1) j d)

/-- The score of row r against key position j. -/
theorem score_apply (r : Fin 1024) (j : Fin 2048) :
    k0_pay3 (F := Ideal) x0 x1 (ix2 r j) = kerScore (qrow x0 r) (krows x1) j := by
  unfold k0_pay3
  refine (qk_apply _ _ r j).trans ?_
  unfold kerScore
  refine Finset.sum_congr rfl fun e _ => ?_
  show (shapeCast S1024x64 x0 _ (ix2 r e) * Ideal.ofBits .f32 0x3E000000#32) * shapeCast S2048x64 x1 _ (ix2 j e) = _
  rw [shapeCast_1ab_ab_apply, shapeCast_1ab_ab_apply]

/-- The maximum of row r's scores. -/
theorem max_apply (r : Fin 1024) (u : Fin 1) :
    k0_pay4 (F := Ideal) x0 x1 (ix2 r u) = rowMax (kerScore (qrow x0 r) (krows x1)) := by
  unfold k0_pay4
  refine (colcast_apply _ _ r u).trans ?_
  refine (rowmax_apply _ _ r).trans ?_
  unfold rowMax
  exact congrArg (fun f => (Finset.univ : Finset (Fin 2048)).fold max (Ideal.ofBits .f32 0xFF800000#32) f)
    (funext fun k => score_apply x0 x1 r k)

/-- The weight of row r at key position o + j, from the cut of 512 score columns at o. -/
theorem weight_apply (o : ℕ) (hs : S1024x2048.Slices ![0, o] S1024x512) (hb : S1024x1.Broadcasts S1024x512)
    (r : Fin 1024) (j : Fin 512) :
    exp (subf (extractStridedSlice S1024x512 ![0, o] (k0_pay3 (F := Ideal) x0 x1) hs) (broadcastTo S1024x512 (k0_pay4 (F := Ideal) x0 x1) hb)) (ix2 r j)
      = kerP (qrow x0 r) (krows x1) ⟨o + j.val, Nat.lt_of_lt_of_le (Nat.add_lt_add_left j.isLt o) (hs.2 1)⟩ := by
  show Ideal.exp (extractStridedSlice S1024x512 ![0, o] (k0_pay3 (F := Ideal) x0 x1) hs (ix2 r j) - broadcastTo S1024x512 (k0_pay4 (F := Ideal) x0 x1) hb (ix2 r j)) = _
  rw [slice2_axis1_eq, colbcast512_apply, score_apply, max_apply]
  rfl

/-- The row sum of one group's weights, as a column entry. -/
theorem lsum_apply (w : FVec Ideal S1024x512 .f32) (h : S1024x512.Reduces [1] S1024) (hc : S1024.ShapeCasts S1024x1)
    (r : Fin 1024) (u : Fin 1) (f : Fin 2048 → EReal) (o : ℕ) (ho : o + 512 ≤ 2048)
    (hw : ∀ j : Fin 512, w (ix2 r j) = f ⟨o + j.val, Nat.lt_of_lt_of_le (Nat.add_lt_add_left j.isLt o) ho⟩) :
    shapeCast S1024x1 (multiReduction .add [1] S1024 w 0x00000000#32 h (.inl rfl) rfl) hc (ix2 r u) = chunk o ho f := by
  refine (colcast_apply _ _ r u).trans ?_
  refine (rowsum_apply _ _ r).trans ?_
  unfold chunk
  exact Finset.sum_congr rfl fun j _ => hw j

/-- Entry (j, d) of the value block as the body holds it. -/
theorem val_apply (j : Fin 2048) (d : Fin 64) : k0_pay2 (F := Ideal) x2 (ix2 j d) = vcol x2 d j := by
  unfold k0_pay2
  show shapeCast S2048x64 x2 _ (ix2 j d) = _
  rw [shapeCast_1ab_ab_apply]

/-- One group's weights times the matching 512 rows of the values, at (r, d). -/
theorem asum_apply (w : FVec Ideal S1024x512 .f32) (hlt : FTy.bits .bf16 < FTy.bits .f32) (o : ℕ)
    (hs : S2048x64.Slices ![o, 0] S512x64) (r : Fin 1024) (d : Fin 64) (f : Fin 2048 → EReal) (ho : o + 512 ≤ 2048)
    (hw : ∀ j : Fin 512, w (ix2 r j) = f ⟨o + j.val, Nat.lt_of_lt_of_le (Nat.add_lt_add_left j.isLt o) ho⟩) :
    matmul dot_S1024x512_S512x64_S1024x64_1_0_0_1_n_n none (truncf .bf16 w hlt)
        (extractStridedSlice S512x64 ![o, 0] (k0_pay2 (F := Ideal) x2) hs) (constant S1024x64 .f32 0x00000000#32) (ix2 r d)
      = chunk o ho (fun j => f j * vcol x2 d j) := by
  refine (pv_apply _ _ r d).trans ?_
  unfold chunk
  refine Finset.sum_congr rfl fun j _ => ?_
  show w (ix2 r j) * extractStridedSlice S512x64 ![o, 0] (k0_pay2 (F := Ideal) x2) hs (ix2 j d) = _
  rw [slice2_axis0_eq, val_apply, hw j]

end Cert.KerPay

end
-- ==== Proof.KerBody.lean ====
/-
  The stored value at entry (0, r, d) of the output block is `Attn.kerVal` of row r of the query block, the key block and
  column d of the value block: the four groups' weights, their row sums and their products with the values, added up
  from zero in the body's order, and the quotient.
-/
import proofs.«406635_j27582279975372_3_alg».proof.Proof.KerPay

noncomputable section

namespace Cert.KerBody

open Idealize.ShloMosaic Idealize.ShloMosaic.ValueIdx Cert.KernelIdeal Cert.KernelIdeal.Gen Cert.KerOps Cert.Attn Cert.KerPay

variable (x0 : Vec Ideal S1x1024x64 .f32) (x1 x2 : Vec Ideal S1x2048x64 .f32)

/-- The weights of key positions 0–511. -/
theorem w0 (r : Fin 1024) (j : Fin 512) :
    k0_pay5 (F := Ideal) x0 x1 (ix2 r j) = kerP (qrow x0 r) (krows x1) ⟨0 + j.val, Nat.lt_of_lt_of_le (Nat.add_lt_add_left j.isLt 0) (by norm_num)⟩ := by
  unfold k0_pay5
  exact weight_apply x0 x1 0 _ _ r j

/-- The weights of key positions 512–1023. -/
theorem w1 (r : Fin 1024) (j : Fin 512) :
    k0_pay6 (F := Ideal) x0 x1 (ix2 r j) = kerP (qrow x0 r) (krows x1) ⟨512 + j.val, Nat.lt_of_lt_of_le (Nat.add_lt_add_left j.isLt 512) (by norm_num)⟩ := by
  unfold k0_pay6
  exact weight_apply x0 x1 512 _ _ r j

/-- The weights of key positions 1024–1535. -/
theorem w2 (r : Fin 1024) (j : Fin 512) :
    exp (subf (k0_pay9 (F := Ideal) x0 x1) (k0_pay10 (F := Ideal) x0 x1)) (ix2 r j)
      = kerP (qrow x0 r) (krows x1) ⟨1024 + j.val, Nat.lt_of_lt_of_le (Nat.add_lt_add_left j.isLt 1024) (by norm_num)⟩ := by
  unfold k0_pay9 k0_pay10
  exact weight_apply x0 x1 1024 _ _ r j

/-- The row sums of the first two groups, added from zero. -/
theorem lacc01 (r : Fin 1024) (u : Fin 1) :
    k0_pay7 (F := Ideal) x0 x1 (ix2 r u)
      = chunk 0 (by norm_num) (kerP (qrow x0 r) (krows x1)) + chunk 512 (by norm_num) (kerP (qrow x0 r) (krows x1)) := by
  unfold k0_pay7
  refine congrArg₂ (· + ·) ?_ (lsum_apply _ _ _ r u _ 512 (by norm_num) (w1 x0 x1 r))
  refine (congrArg₂ (· + ·) Ideal.ofBits_zero_f32 (lsum_apply _ _ _ r u _ 0 (by norm_num) (w0 x0 x1 r))).trans (zero_add _)

/-- The first two groups' weights times values, added from zero. -/
theorem aacc01 (r : Fin 1024) (d : Fin 64) :
    k0_pay8 (F := Ideal) x0 x1 x2 (ix2 r d)
      = chunk 0 (by norm_num) (fun j => kerP (qrow x0 r) (krows x1) j * vcol x2 d j)
        + chunk 512 (by norm_num) (fun j => kerP (qrow x0 r) (krows x1) j * vcol x2 d j) := by
  unfold k0_pay8
  refine congrArg₂ (· + ·) ?_ (asum_apply x2 _ _ 512 _ r d _ (by norm_num) (w1 x0 x1 r))
  refine (congrArg₂ (· + ·) Ideal.ofBits_zero_f32 (asum_apply x2 _ _ 0 _ r d _ (by norm_num) (w0 x0 x1 r))).trans (zero_add _)

/-- The stored value at (0, r, d). -/
theorem pay_apply (r : Fin 1024) (d : Fin 64) :
    k0_pay1 (F := Ideal) (k0_pay2 x2) (k0_pay3 x0 x1) (k0_pay4 x0 x1) (k0_pay7 x0 x1) (k0_pay8 x0 x1 x2) (k0_pay9 x0 x1) (k0_pay10 x0 x1)
        (ix3 (0 : Fin 1) r d)
      = kerVal (qrow x0 r) (krows x1) (vcol x2 d) := by
  unfold k0_pay1
  refine (shapeCast_ab_1ab_apply _ _ (0 : Fin 1) r d).trans ?_
  unfold kerVal
  refine congrArg₂ Ideal.div ?_ ?_
  · refine congrArg₂ (· + ·) (congrArg₂ (· + ·) (aacc01 x0 x1 x2 r d) ?_) ?_
    · exact asum_apply x2 _ _ 1024 _ r d _ (by norm_num) (w2 x0 x1 r)
    · exact asum_apply x2 _ _ 1536 _ r d _ (by norm_num) (weight_apply x0 x1 1536 _ _ r)
  · refine (colbcast64_apply _ _ r d).trans ?_
    refine congrArg₂ (· + ·) (congrArg₂ (· + ·) (lacc01 x0 x1 r 0) ?_) ?_
    · exact lsum_apply _ _ _ r 0 _ 1024 (by norm_num) (w2 x0 x1 r)
    · exact lsum_apply _ _ _ r 0 _ 1536 (by norm_num) (weight_apply x0 x1 1536 _ _ r)

end Cert.KerBody

end
-- ==== Proof.Spec3.lean ====
/-
  The function the kernel's program computes, as ONE function of its three arguments.

  The program recasts each [4, 16, 2048, 64] argument to [64, 2048, 64] (batch and head merged: head g = 16·b + h),
  attends within each of the 64 heads, and recasts the result back. `attn3` is one entry of the attention of flat
  arrays, the row formula `Attn.kerVal` of that entry's query row, its head's keys and its column of its head's values;
  `G3` is the whole flat output; `result` is the program's result. Read at (b, h, i, d), `result` is the row formula of
  the arguments' own rows (b, h, i, ·), (b, h, ·, ·) and (b, h, ·, d): both recasts keep the row-major position.
-/
import proofs.«406635_j27582279975372_3_alg».proof.Proof.Gen.KernelIdeal
import proofs.«406635_j27582279975372_3_alg».proof.Proof.Attn
import Idealize.ShloMosaic.Lib.ValueIdx
import Idealize.ShloMosaic.Lib.Pipeline.Value

noncomputable section

namespace Cert.Spec3

open Cert.KernelIdeal Cert.KernelIdeal.Gen Idealize.ShloMosaic Idealize.ShloMosaic.ValueIdx Cert.Attn

/-- Attention of head g, query row i, feature d, over flat [64, 2048, 64] arrays. -/
def attn3 (Q K V : S64x2048x64.Idx → EReal) (g : Fin 64) (i : Fin 2048) (d : Fin 64) : EReal :=
  kerVal (fun e => Q (ix3 g i e)) (fun j e => K (ix3 g j e)) (fun j => V (ix3 g j d))

/-- The same at an index of the flat array. -/
def G3 (Q K V : S64x2048x64.Idx → EReal) : S64x2048x64.Idx → EReal := fun x =>
  attn3 Q K V ⟨(x 0).val, (x 0).isLt⟩ ⟨(x 1).val, (x 1).isLt⟩ ⟨(x 2).val, (x 2).isLt⟩

/-- The program's result as a function of its three arguments: recast, attend, recast back. -/
def result (a0 a1 a2 : S4x16x2048x64.Idx → EReal) : S4x16x2048x64.Idx → EReal :=
  shapeCast S4x16x2048x64
    (G3 (shapeCast S64x2048x64 a0 shapeCasts_S4x16x2048x64_S64x2048x64) (shapeCast S64x2048x64 a1 shapeCasts_S4x16x2048x64_S64x2048x64)
      (shapeCast S64x2048x64 a2 shapeCasts_S4x16x2048x64_S64x2048x64))
    shapeCasts_S64x2048x64_S4x16x2048x64

/-- The merged head index. -/
abbrev head (b : Fin 4) (h : Fin 16) : Fin 64 := ⟨b.val * 16 + h.val, by omega⟩

/-- A recast argument at (16·b + h, i, e) is the argument at (b, h, i, e). -/
theorem flat_apply (a : S4x16x2048x64.Idx → EReal) (hc : S4x16x2048x64.ShapeCasts S64x2048x64)
    (b : Fin 4) (h : Fin 16) (i : Fin 2048) (e : Fin 64) :
    shapeCast S64x2048x64 a hc (ix3 (head b h) i e) = a (ix4 b h i e) :=
  shapeCast_apply a hc _ _ (by
    rw [Shape.rowMajor_val_four, Shape.rowMajor_val_three]
    show ((b.val * 16 + h.val) * 2048 + i.val) * 64 + e.val = ((b.val * 16 + h.val) * 2048 + i.val) * 64 + e.val
    rfl)

/-- A flat array recast back, at (b, h, i, d), is the flat array at (16·b + h, i, d). -/
theorem unflat_apply (A : S64x2048x64.Idx → EReal) (hc : S64x2048x64.ShapeCasts S4x16x2048x64)
    (b : Fin 4) (h : Fin 16) (i : Fin 2048) (d : Fin 64) :
    shapeCast S4x16x2048x64 A hc (ix4 b h i d) = A (ix3 (head b h) i d) :=
  shapeCast_apply A hc _ _ (by
    rw [Shape.rowMajor_val_four, Shape.rowMajor_val_three]
    show ((b.val * 16 + h.val) * 2048 + i.val) * 64 + d.val = ((b.val * 16 + h.val) * 2048 + i.val) * 64 + d.val
    rfl)

/-- The program's result at (b, h, i, d): the row formula of the arguments' own rows. -/
theorem result_apply (a0 a1 a2 : S4x16x2048x64.Idx → EReal) (b : Fin 4) (h : Fin 16) (i : Fin 2048) (d : Fin 64) :
    result a0 a1 a2 (ix4 b h i d)
      = kerVal (fun e => a0 (ix4 b h i e)) (fun j e => a1 (ix4 b h j e)) (fun j => a2 (ix4 b h j d)) := by
  unfold result
  rw [unflat_apply]
  show kerVal (fun e => shapeCast S64x2048x64 a0 shapeCasts_S4x16x2048x64_S64x2048x64 (ix3 (head b h) i e))
      (fun j e => shapeCast S64x2048x64 a1 shapeCasts_S4x16x2048x64_S64x2048x64 (ix3 (head b h) j e))
      (fun j => shapeCast S64x2048x64 a2 shapeCasts_S4x16x2048x64_S64x2048x64 (ix3 (head b h) j d)) = _
  simp only [flat_apply]

end Cert.Spec3

end
-- ==== Proof.KerArr.lean ====
/-
  From blocks to arrays. The pallas_call runs over 64 heads × 2 halves of the 2048 query rows; at point t it reads rows
  (t mod 2)·1024 … +1023 of head t / 2 of the flat query array, all of that head's keys and values, and writes the
  same rows of that head of the flat output. Every entry it writes is the row formula `Attn.kerVal` of the entry's own
  query row, its head's keys and its column of its head's values; the 128 blocks tile the output array; so the
  output array is that one function `G3` of the three flat arrays. Around the call the program only recasts:
  [4, 16, 2048, 64] to [64, 2048, 64] for the three arguments before it, and back for the result after it.
-/
import proofs.«406635_j27582279975372_3_alg».proof.Proof.Gen.KernelIdeal.Frame
import proofs.«406635_j27582279975372_3_alg».proof.Proof.KerBody
import proofs.«406635_j27582279975372_3_alg».proof.Proof.Spec3
import Idealize.ShloMosaic.Lib.Pipeline.Value
import Idealize.ShloMosaic.Lib.StableHlo.Run

noncomputable section

namespace Cert.KerArr

open Cert.KernelIdeal Cert.KernelIdeal.Gen Idealize.ShloMosaic Idealize.ShloMosaic.TcCoe Idealize.SL.Sem
open Idealize.ShloMosaic.ValueIdx Cert.Attn Cert.Spec3
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ### One block -/

/-- One block: if the three loaded blocks are rows o … o+1023 of head g's queries and all of head g's keys and values,
    the stored block's entry y is `G3` at the array index (g, o + y₁, y₂). -/
theorem block_eq (Q K V : S64x2048x64.Idx → EReal) (x0 : Vec Ideal S1x1024x64 .f32) (x1 x2 : Vec Ideal S1x2048x64 .f32)
    (g : Fin 64) (o : ℕ) (ho : o + 1024 ≤ 2048)
    (h0 : ∀ (r : Fin 1024) (e : Fin 64), x0 (ix3 (0 : Fin 1) r e) = Q (ix3 g ⟨o + r.val, by omega⟩ e))
    (h1 : ∀ (j : Fin 2048) (e : Fin 64), x1 (ix3 (0 : Fin 1) j e) = K (ix3 g j e))
    (h2 : ∀ (j : Fin 2048) (e : Fin 64), x2 (ix3 (0 : Fin 1) j e) = V (ix3 g j e))
    (y : S1x1024x64.Idx) (i : S64x2048x64.Idx) (hi0 : (i 0).val = g.val) (hi1 : (i 1).val = o + (y 1).val)
    (hi2 : (i 2).val = (y 2).val) :
    k0_pay1 (F := Ideal) (k0_pay2 x2) (k0_pay3 x0 x1) (k0_pay4 x0 x1) (k0_pay7 x0 x1) (k0_pay8 x0 x1 x2) (k0_pay9 x0 x1) (k0_pay10 x0 x1) y
      = G3 Q K V i := by
  obtain ⟨u, r, d, rfl⟩ : ∃ (u : Fin 1) (r : Fin 1024) (d : Fin 64), y = ix3 u r d := ⟨y 0, y 1, y 2, eq_ix3 y⟩
  obtain rfl : u = 0 := Subsingleton.elim _ _
  rw [KerBody.pay_apply]
  unfold G3 attn3
  have e0 : (⟨(i 0).val, (i 0).isLt⟩ : Fin 64) = g := Fin.ext hi0
  have e1 : (⟨(i 1).val, (i 1).isLt⟩ : Fin 2048) = ⟨o + r.val, by omega⟩ := Fin.ext hi1
  have e2 : (⟨(i 2).val, (i 2).isLt⟩ : Fin 64) = d := Fin.ext hi2
  rw [e0, e1, e2]
  exact congr (congr (congrArg kerVal (funext fun e => h0 r e)) (funext fun j => funext fun e => h1 j e)) (funext fun j => h2 j d)

/-! ### The grid's index maps and the blocks -/

/-- The printed index maps over the 128 points: head t / 2 for every window, half t mod 2 for the query and output. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

theorem N128 : cfg0.N = 128 := N_0

/-- The head of point t. -/
def headOf (t : Fin cfg0.N) : Fin 64 := ⟨t.val / 2, by have := t.isLt; have := N128; omega⟩

/-- The query block at point t is rows (t mod 2)·1024 … of head t / 2 of the flat query array. -/
theorem iblk0_apply (c : Dev nD) (t : Fin cfg0.N) (r : Fin 1024) (e : Fin 64) :
    (iblk m c 0 t : Vec Ideal S1x1024x64 .f32) (ix3 (0 : Fin 1) r e)
      = (V m c main_v0 : S64x2048x64.Idx → EReal) (ix3 (headOf t) ⟨t.val % 2 * 1024 + r.val, by omega⟩ e) := by
  obtain ⟨a0, a1, a2, -⟩ := idx_facts t
  unfold iblk
  rw [View.read_apply]
  show V m c main_v0 _ = V m c main_v0 _
  congr 1
  funext a
  apply Fin.ext
  match a with
  | ⟨0, _⟩ => show win0_0.index t (0 : Fin 3) * 1 + 1 * 0 = t.val / 2; omega
  | ⟨1, _⟩ => show win0_0.index t (1 : Fin 3) * 1024 + 1 * r.val = t.val % 2 * 1024 + r.val; omega
  | ⟨2, _⟩ => show win0_0.index t (2 : Fin 3) * 64 + 1 * e.val = e.val; omega

/-- The key block at point t is all of head t / 2 of the flat key array. -/
theorem iblk1_apply (c : Dev nD) (t : Fin cfg0.N) (j : Fin 2048) (e : Fin 64) :
    (iblk m c 1 t : Vec Ideal S1x2048x64 .f32) (ix3 (0 : Fin 1) j e)
      = (V m c main_v1 : S64x2048x64.Idx → EReal) (ix3 (headOf t) j e) := by
  obtain ⟨-, -, -, a0, a1, a2, -⟩ := idx_facts t
  unfold iblk
  rw [View.read_apply]
  show V m c main_v1 _ = V m c main_v1 _
  congr 1
  funext a
  apply Fin.ext
  match a with
  | ⟨0, _⟩ => show win0_1.index t (0 : Fin 3) * 1 + 1 * 0 = t.val / 2; omega
  | ⟨1, _⟩ => show win0_1.index t (1 : Fin 3) * 2048 + 1 * j.val = j.val; omega
  | ⟨2, _⟩ => show win0_1.index t (2 : Fin 3) * 64 + 1 * e.val = e.val; omega

/-- The value block at point t is all of head t / 2 of the flat value array. -/
theorem iblk2_apply (c : Dev nD) (t : Fin cfg0.N) (j : Fin 2048) (e : Fin 64) :
    (iblk m c 2 t : Vec Ideal S1x2048x64 .f32) (ix3 (0 : Fin 1) j e)
      = (V m c main_v2 : S64x2048x64.Idx → EReal) (ix3 (headOf t) j e) := by
  obtain ⟨-, -, -, -, -, -, a0, a1, a2, -⟩ := idx_facts t
  unfold iblk
  rw [View.read_apply]
  show V m c main_v2 _ = V m c main_v2 _
  congr 1
  funext a
  apply Fin.ext
  match a with
  | ⟨0, _⟩ => show win0_2.index t (0 : Fin 3) * 1 + 1 * 0 = t.val / 2; omega
  | ⟨1, _⟩ => show win0_2.index t (1 : Fin 3) * 2048 + 1 * j.val = j.val; omega
  | ⟨2, _⟩ => show win0_2.index t (2 : Fin 3) * 64 + 1 * e.val = e.val; omega

/-- What point t writes back is block t of `G3` of the three flat arrays as the call finds them. -/
theorem flushed_eq (c : Dev nD) (t : Fin cfg0.N) :
    (dats m 0 c).flushed 3 t
      = ((cfg0.win 3).blk t).view.read (Elt Ideal) (G3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x1024x64) hz, View.ld_unit_zero (S := S1x2048x64) hz]
  obtain ⟨-, -, -, -, -, -, -, -, -, a0, a1, a2⟩ := idx_facts t
  funext y
  rw [View.read_apply]
  refine block_eq (V m c main_v0) (V m c main_v1) (V m c main_v2) (iblk m c 0 t) (iblk m c 1 t) (iblk m c 2 t)
    (headOf t) (t.val % 2 * 1024) (by omega) (iblk0_apply m c t) (iblk1_apply m c t) (iblk2_apply m c t) y _ ?_ ?_ ?_
  · show win0_3.index t (0 : Fin 3) * 1 + 1 * (y 0).val = t.val / 2
    have : (y 0).val < 1 := (y 0).isLt
    omega
  · show win0_3.index t (1 : Fin 3) * 1024 + 1 * (y 1).val = t.val % 2 * 1024 + (y 1).val
    omega
  · show win0_3.index t (2 : Fin 3) * 64 + 1 * (y 2).val = (y 2).val
    omega

/-- An index of the output array is in point t's block iff each coordinate is in the block's range on its axis. -/
theorem mem_blk (t : Fin cfg0.N) (i : S64x2048x64.Idx) :
    i ∈ ((cfg0.win 3).blk t).view.set ↔ ∀ a : Fin 3, win0_3.index t a * S1x1024x64.size a ≤ (i a).val ∧ (i a).val < win0_3.index t a * S1x1024x64.size a + S1x1024x64.size a := by
  show i ∈ ((View.whole main_v3).slice (win0_3.rect t)).set ↔ _
  rw [View.set_slice_whole, Rect.mem_set_unit]
  exact Iff.rfl

/-- The 128 blocks tile the output array: (g, i, d) lies in the block of point 2·g + i / 1024. -/
theorem cover (i : S64x2048x64.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 64 := (i 2).isLt
  refine ⟨⟨(i 0).val * 2 + (i 1).val / 1024, by rw [N128]; omega⟩, flush0_3 _, ?_⟩
  rw [mem_blk]
  obtain ⟨-, -, -, -, -, -, -, -, -, a0, a1, a2⟩ := idx_facts ⟨(i 0).val * 2 + (i 1).val / 1024, by rw [N128]; omega⟩
  intro a
  match a with
  | ⟨0, _⟩ =>
    show win0_3.index _ (0 : Fin 3) * 1 ≤ (i 0).val ∧ (i 0).val < win0_3.index _ (0 : Fin 3) * 1 + 1
    rw [a0]; show ((i 0).val * 2 + (i 1).val / 1024) / 2 * 1 ≤ (i 0).val ∧ (i 0).val < ((i 0).val * 2 + (i 1).val / 1024) / 2 * 1 + 1
    omega
  | ⟨1, _⟩ =>
    show win0_3.index _ (1 : Fin 3) * 1024 ≤ (i 1).val ∧ (i 1).val < win0_3.index _ (1 : Fin 3) * 1024 + 1024
    rw [a1]; show ((i 0).val * 2 + (i 1).val / 1024) % 2 * 1024 ≤ (i 1).val ∧ (i 1).val < ((i 0).val * 2 + (i 1).val / 1024) % 2 * 1024 + 1024
    omega
  | ⟨2, _⟩ =>
    show win0_3.index _ (2 : Fin 3) * 64 ≤ (i 2).val ∧ (i 2).val < win0_3.index _ (2 : Fin 3) * 64 + 64
    rw [a2]; omega

/-- The output array after the call is `G3` of the three flat arrays. -/
theorem final (c : Dev nD) :
    (dats m 0 c).arrAt 3 cfg0.N = G3 (V m c main_v0) (V m c main_v1) (V m c main_v2) :=
  (dats m 0 c).arrAt_eq_of_cover 3 (G3 (V m c main_v0) (V m c main_v1) (V m c main_v2)) (fun t _ => flushed_eq m c t) cover

/-! ### The recasts around the call -/

/-- The flat query array is the first argument recast. -/
theorem V_v0 (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl

/-- The flat key array is the second argument recast. -/
theorem V_v1 (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl

/-- The flat value array is the third argument recast. -/
theorem V_v2 (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl

/-- The result buffer after the line that follows the call. -/
theorem tail_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have hw := (Pipeline.withArrays_arr spec0 launch0.win.arr_inj c (V0 m c) (fun w => (dats m 0 c).arrAt w (cfgs 0).N) 3).trans (final m c)
  refine Eq.trans ?_ (congrArg (fun A => shapeCast S4x16x2048x64 A shapeCasts_S64x2048x64_S4x16x2048x64) (hw.trans ?_))
  · rfl
  · rw [V_v0, V_v1, V_v2]

/-! ### The run, read -/

/-- Every weakly fair execution of the program ends with the result buffer at `result` of the three arguments as
    launched, and the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KerArr

end
-- ==== Proof.RefRead.lean ====
/-
  The reference, read at one output index (b, h, i, d): it is the row formula `Attn.refVal` of query row (b, h, i),
  the keys of head (b, h) and column d of that head's values.

  Stage by stage: the first contraction is a sum over the 64 features; the scale multiplies it; the row maximum is a
  fold of max from −∞ over the 2048 key positions (and one more max with −∞); the weights are exp of the difference;
  the normaliser is 0 plus their sum over the key positions; each weight is divided by it; the second contraction sums
  weight × value over the key positions.
-/
import proofs.«406635_j27582279975372_3_alg».proof.Proof.Gen.ReferenceIdeal.Read
import proofs.«406635_j27582279975372_3_alg».proof.Proof.Attn
import Idealize.ShloMosaic.Lib.ValueIdx
import Idealize.ShloMosaic.PureOps.Ideal.Laws

noncomputable section

namespace Cert.RefRead

open Idealize.ShloMosaic Idealize.ShloMosaic.ValueIdx Cert.ReferenceIdeal Cert.ReferenceIdeal.Gen Cert.ReferenceIdeal.Read

/-! ### The index maps at explicit coordinates -/

private theorem lidx0_ix (b : Fin 4) (h : Fin 16) (i j : Fin 2048) (e : Fin 64) :
    lidx_main_v0 (ix4 b h i j) e = ix4 b h i e :=
  funext fun a => Fin.ext (by match a with | ⟨0, _⟩ => rfl | ⟨1, _⟩ => rfl | ⟨2, _⟩ => rfl | ⟨3, _⟩ => rfl)

private theorem ridx0_ix (b : Fin 4) (h : Fin 16) (i j : Fin 2048) (e : Fin 64) :
    ridx_main_v0 (ix4 b h i j) e = ix4 b h j e :=
  funext fun a => Fin.ext (by match a with | ⟨0, _⟩ => rfl | ⟨1, _⟩ => rfl | ⟨2, _⟩ => rfl | ⟨3, _⟩ => rfl)

private theorem idx7_ix (b : Fin 4) (h : Fin 16) (i j : Fin 2048) :
    idx_main_v7 (ix4 b h i j) = ix4 b h i (0 : Fin 1) :=
  funext fun a => Fin.ext (by match a with | ⟨0, _⟩ => rfl | ⟨1, _⟩ => rfl | ⟨2, _⟩ => rfl | ⟨3, _⟩ => rfl)

private theorem idx6_ix (b : Fin 4) (h : Fin 16) (i : Fin 2048) :
    idx_main_v6 (ix4 b h i (0 : Fin 1)) = ix3 b h i :=
  funext fun a => Fin.ext (by match a with | ⟨0, _⟩ => rfl | ⟨1, _⟩ => rfl | ⟨2, _⟩ => rfl)

private theorem idx12_ix (b : Fin 4) (h : Fin 16) (i j : Fin 2048) :
    idx_main_v12 (ix4 b h i j) = ix4 b h i (0 : Fin 1) :=
  funext fun a => Fin.ext (by match a with | ⟨0, _⟩ => rfl | ⟨1, _⟩ => rfl | ⟨2, _⟩ => rfl | ⟨3, _⟩ => rfl)

private theorem idx11_ix (b : Fin 4) (h : Fin 16) (i : Fin 2048) :
    idx_main_v11 (ix4 b h i (0 : Fin 1)) = ix3 b h i :=
  funext fun a => Fin.ext (by match a with | ⟨0, _⟩ => rfl | ⟨1, _⟩ => rfl | ⟨2, _⟩ => rfl)

private theorem idx10_ix (b : Fin 4) (h : Fin 16) (i l : Fin 2048) :
    idx_main_v10 (ix3 b h i) l = ix4 b h i l :=
  funext fun a => Fin.ext (by match a with | ⟨0, _⟩ => rfl | ⟨1, _⟩ => rfl | ⟨2, _⟩ => rfl | ⟨3, _⟩ => rfl)

private theorem lidx14_ix (b : Fin 4) (h : Fin 16) (i : Fin 2048) (d : Fin 64) (j : Fin 2048) :
    lidx_main_v14 (ix4 b h i d) j = ix4 b h i j :=
  funext fun a => Fin.ext (by match a with | ⟨0, _⟩ => rfl | ⟨1, _⟩ => rfl | ⟨2, _⟩ => rfl | ⟨3, _⟩ => rfl)

private theorem ridx14_ix (b : Fin 4) (h : Fin 16) (i : Fin 2048) (d : Fin 64) (j : Fin 2048) :
    ridx_main_v14 (ix4 b h i d) j = ix4 b h j d :=
  funext fun a => Fin.ext (by match a with | ⟨0, _⟩ => rfl | ⟨1, _⟩ => rfl | ⟨2, _⟩ => rfl | ⟨3, _⟩ => rfl)

/-- The reduced index (b, h, i) with key position k put back on the last axis is (b, h, i, k). -/
private theorem lift_ix (hr : S4x16x2048x2048.Reduces [3] S4x16x2048) (b : Fin 4) (h : Fin 16) (i : Fin 2048)
    (k : Fin (S4x16x2048x2048.size 3)) : hr.lift (ix3 b h i) k = ix4 b h i (⟨k.val, k.isLt⟩ : Fin 2048) :=
  funext fun a => Fin.ext (by match a with | ⟨0, _⟩ => rfl | ⟨1, _⟩ => rfl | ⟨2, _⟩ => rfl | ⟨3, _⟩ => rfl)

/-! ### The stages at explicit coordinates -/

/-- The scaled score of query row (b, h, i) against key row j. -/
private theorem score_apply (x0 x1 : FVec Ideal S4x16x2048x64 .f32) (b : Fin 4) (h : Fin 16) (i j : Fin 2048) :
    val_main_v2 (F := Ideal) x0 x1 (ix4 b h i j)
      = Cert.Attn.refScore (fun e => x0 (ix4 b h i e)) (fun j e => x1 (ix4 b h j e)) j := by
  rw [val_main_v2_apply, val_main_v0_apply, val_main_v1_apply, val_main_cst_apply]
  unfold Cert.Attn.refScore
  rw [Ideal.mulf_def, Ideal.ofBits_def]
  refine congrArg (· * Cert.Attn.cScale) (Finset.sum_congr rfl fun e _ => ?_)
  rw [lidx0_ix, ridx0_ix]

/-- The row maximum of query row (b, h, i): the fold of max from −∞ over the key positions, and one more max with −∞. -/
private theorem rowmax_apply (x0 x1 : FVec Ideal S4x16x2048x64 .f32) (b : Fin 4) (h : Fin 16) (i : Fin 2048) :
    val_main_v5 (F := Ideal) x0 x1 (ix3 b h i)
      = max Cert.Attn.cNegInf
          (Cert.Attn.rowMax (Cert.Attn.refScore (fun e => x0 (ix4 b h i e)) (fun j e => x1 (ix4 b h j e)))) := by
  have hr : S4x16x2048x2048.Reduces [3] S4x16x2048 := by decide
  rw [val_main_v5_apply, val_main_v4_apply, val_main_cst_1_apply, Ideal.maximumf_def, Ideal.ofBits_def]
  refine congrArg (max Cert.Attn.cNegInf) ?_
  unfold val_main_v3
  rw [Host.reduce_eq_fold_single FloatOps.maximumf _ _ _ hr h_S_]
  unfold Cert.Attn.rowMax
  have hf : (val_main_v2 (F := Ideal) x0 x1 ∘ hr.lift (ix3 b h i))
      = fun k : Fin 2048 => Cert.Attn.refScore (fun e => x0 (ix4 b h i e)) (fun j e => x1 (ix4 b h j e)) k :=
    funext fun k => (congrArg (val_main_v2 (F := Ideal) x0 x1) (lift_ix hr b h i k)).trans (score_apply x0 x1 b h i _)
  exact congrArg (fun f => Finset.fold max Cert.Attn.cNegInf f (Finset.univ : Finset (Fin 2048))) hf

/-- The weight of key position j in query row (b, h, i): exp of the score less the row maximum. -/
private theorem weight_apply (x0 x1 : FVec Ideal S4x16x2048x64 .f32) (b : Fin 4) (h : Fin 16) (i j : Fin 2048) :
    val_main_v9 (F := Ideal) x0 x1 (ix4 b h i j)
      = Cert.Attn.refP (fun e => x0 (ix4 b h i e)) (fun j e => x1 (ix4 b h j e)) j := by
  rw [val_main_v9_apply, val_main_v8_apply, val_main_v7_apply, val_main_v6_apply, idx7_ix, idx6_ix, score_apply,
    rowmax_apply, Ideal.hostUnary_exp_def, Ideal.subf_def]
  rfl

/-- The normaliser of query row (b, h, i): zero plus the sum of the weights over the key positions. -/
private theorem norm_apply (x0 x1 : FVec Ideal S4x16x2048x64 .f32) (b : Fin 4) (h : Fin 16) (i : Fin 2048) :
    val_main_v10 (F := Ideal) x0 x1 (ix3 b h i)
      = ∑ l : Fin 2048, Cert.Attn.refP (fun e => x0 (ix4 b h i e)) (fun j e => x1 (ix4 b h j e)) l := by
  rw [val_main_v10_apply, val_main_cst_2_apply, Ideal.ofBits_def, Ideal.ofBits_zero_f32, zero_add]
  exact Finset.sum_congr rfl fun l _ => by rw [idx10_ix, weight_apply]

/-- The reference's result at (b, h, i, d) is the row formula of the rows it reads. -/
theorem ref_apply (x0 x1 x2 : FVec Ideal S4x16x2048x64 .f32) (b : Fin 4) (h : Fin 16) (i : Fin 2048) (d : Fin 64) :
    val_main_v14 (F := Ideal) x0 x1 x2 (ix4 b h i d)
      = Cert.Attn.refVal (fun e => x0 (ix4 b h i e)) (fun j e => x1 (ix4 b h j e)) (fun j => x2 (ix4 b h j d)) := by
  rw [val_main_v14_apply]
  unfold Cert.Attn.refVal
  refine Finset.sum_congr rfl fun j _ => ?_
  rw [lidx14_ix, ridx14_ix, val_main_v13_apply, val_main_v12_apply, val_main_v11_apply, idx12_ix, idx11_ix,
    weight_apply, norm_apply, Ideal.hostDivf_def]

end Cert.RefRead

end
-- ==== Proof.Bridge.lean ====
/-
  The two programs compute one function on finite inputs: at every index (b, h, i, d) the kernel program's result is
  the kernel's row formula of the arguments' rows, the reference's result is the reference's row formula of the same
  rows, and on real entries the two row formulas agree.
-/
import proofs.«406635_j27582279975372_3_alg».proof.Proof.Spec3
import proofs.«406635_j27582279975372_3_alg».proof.Proof.RefRead

noncomputable section

namespace Cert.Bridge

open Idealize.ShloMosaic Idealize.ShloMosaic.ValueIdx

/-- On arrays of real entries the reference's result is the kernel program's result. -/
theorem ref_eq_result (a0 a1 a2 : FVec Ideal Cert.ReferenceIdeal.S4x16x2048x64 .f32)
    (h0 : ∀ i, ∃ r : ℝ, a0 i = (r : EReal)) (h1 : ∀ i, ∃ r : ℝ, a1 i = (r : EReal)) (h2 : ∀ i, ∃ r : ℝ, a2 i = (r : EReal)) :
    Cert.ReferenceIdeal.Read.val_main_v14 (F := Ideal) a0 a1 a2 = Cert.Spec3.result a0 a1 a2 := by
  funext x
  obtain ⟨b, h, i, d, rfl⟩ : ∃ (b : Fin 4) (h : Fin 16) (i : Fin 2048) (d : Fin 64), x = ix4 b h i d :=
    ⟨x 0, x 1, x 2, x 3, eq_ix4 x⟩
  rw [Cert.RefRead.ref_apply, Cert.Spec3.result_apply]
  exact (Cert.Attn.kerVal_eq_refVal _ _ _ (fun e => h0 _) (fun j e => h1 _) (fun j => h2 _)).symm

end Cert.Bridge

end
-- ==== Proof.lean ====
/-
  Dense scaled-dot-product attention, softmax(q·kᵀ / 8)·v over [4, 16, 2048, 64] arrays: a tiled kernel against the
  plain two-contraction formula, equal over the extended reals on finite inputs.

  The kernel program merges batch and head into 64 heads and, per head and per half of the 2048 query rows, forms
  the scores with the query scaled by 1/8 first, the row maxima m, and — in four groups of 512 key positions — the
  weights exp(s − m), their row sums and their products with the values; it divides the accumulated product by the
  accumulated row sum once. The reference scales the finished scores, takes the same maxima and weights, divides every
  weight by the row sum, and contracts with the values. Where every entry of q, k and v is a real number the two
  agree entry by entry: the scale moves across the 64-term contraction by distributivity, the four groups add up to
  the whole row, and dividing the sum equals summing the quotients because the row sum is a sum of 2048 positive
  reals, hence finite and nonzero. Format changes (the kernel's bf16 casts) are the identity on the extended reals,
  so no conjunct is owed for the idealization.

  The modules: `Attn` (the two row formulas and their agreement on real entries), `Finite` (the precondition gives
  real entries), `RefRead` (the reference at an index is its row formula), `KerOps`, `KerPay`, `KerBody` (the kernel
  body's stored value at an index is its row formula), `Spec3` (the kernel program's result as one function of its
  arguments), `KerArr` (the 128 blocks tile the output; the program's run), `Bridge` (the two results are one
  function). The three frames are the generated frame runs and the reference's generated run.
-/
import proofs.«406635_j27582279975372_3_alg».proof.Defs
import proofs.«406635_j27582279975372_3_alg».proof.Proof.Gen.Kernel
import proofs.«406635_j27582279975372_3_alg».proof.Proof.Gen.Kernel.Skeleton
import proofs.«406635_j27582279975372_3_alg».proof.Proof.Gen.Kernel.Launch
import proofs.«406635_j27582279975372_3_alg».proof.Proof.Gen.Kernel.Points
import proofs.«406635_j27582279975372_3_alg».proof.Proof.Gen.Kernel.Frame
import proofs.«406635_j27582279975372_3_alg».proof.Proof.Gen.KernelIdeal
import proofs.«406635_j27582279975372_3_alg».proof.Proof.Gen.KernelIdeal.Skeleton
import proofs.«406635_j27582279975372_3_alg».proof.Proof.Gen.KernelIdeal.Launch
import proofs.«406635_j27582279975372_3_alg».proof.Proof.Gen.KernelIdeal.Points
import proofs.«406635_j27582279975372_3_alg».proof.Proof.Gen.KernelIdeal.Frame
import proofs.«406635_j27582279975372_3_alg».proof.Proof.Gen.ReferenceIdeal
import proofs.«406635_j27582279975372_3_alg».proof.Proof.Gen.Pre_finite_inputs
import proofs.«406635_j27582279975372_3_alg».proof.Proof.Gen.ReferenceIdeal.Run
import proofs.«406635_j27582279975372_3_alg».proof.Proof.Gen.ReferenceIdeal.Read
import proofs.«406635_j27582279975372_3_alg».proof.Proof.Finite
import proofs.«406635_j27582279975372_3_alg».proof.Proof.KerArr
import proofs.«406635_j27582279975372_3_alg».proof.Proof.Bridge
import Idealize.ShloMosaic.Adequacy
import Idealize.ShloMosaic.Init

noncomputable section

namespace Cert.Proof

open Idealize.ShloMosaic Idealize.SL.Sem

/-- The word-level kernel program runs and keeps its arguments: its generated frame run. -/
theorem frame_k : Cert.frame_Kernel := fun m ρ _ => Cert.Kernel.Gen.frame m ρ

/-- The idealized kernel program runs and keeps its arguments: its generated frame run. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on q, k and v, all finite, both programs end with the same result: the kernel program's
    result is `Spec3.result` of its arguments, the reference's is its composed term, and the two are one function on
    real entries. -/
theorem algebraic : Cert.algebraic_KernelIdeal_ReferenceIdeal := by
  intro m ρ m' ρ' hpre hagree
  refine ⟨fun c => Cert.Spec3.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.KerArr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  obtain ⟨f0, f1, f2⟩ := Cert.Finite.real_of_pre _ _ _ (hpre c)
  exact Cert.Bridge.ref_eq_result _ _ _ f0 f1 f2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
